-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S4x1024x1024 : Shape := ⟨3, ![4, 1024, 1024]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel

variable [Facts]

def fn {F : FTy → Type} [FloatOps F] (main_arg0 : FVec F S4x16x1024x64 .f32) (main_arg1 : FVec F S4x16x1024x64 .f32) (main_arg2 : FVec F S4x16x1024x64 .f32) (main_arg3 : IVec S4x1024x1024 32) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  main_v13
-- ==== Kernel.lean ====
abbrev S4x16x1024x64 : Shape := ⟨4, ![4, 16, 1024, 64]⟩
abbrev S4x1024x1024 : Shape := ⟨3, ![4, 1024, 1024]⟩
abbrev S4x16x1024x1024 : Shape := ⟨4, ![4, 16, 1024, 1024]⟩
abbrev S1x1x1024x64 : Shape := ⟨4, ![1, 1, 1024, 64]⟩
abbrev S1x1024x1024 : Shape := ⟨3, ![1, 1024, 1024]⟩
abbrev S1x1x1024x1024 : Shape := ⟨4, ![1, 1, 1024, 1024]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x1024x1024, .i32⟩
  | .hbm, ⟨4, _⟩ => ⟨S4x16x1024x1024, .f32⟩
  | .hbm, ⟨5, _⟩ => ⟨S4x16x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1024x1024, .i32⟩
  | .local _ .vmem, ⟨5, _⟩ => ⟨S1x1024x1024, .i32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  reduces_S1024x1024_S1024 : S1024x1024.Reduces [1] S1024
  shapeCasts_S1024_S1024x1 : S1024.ShapeCasts S1024x1
  broadcasts_S1024x1_S1024x1024 : S1024x1.Broadcasts S1024x1024
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x1024x64.size a
  hwx0_0 : ∀ i : grid0.Coords, EltTy.bits .f32 = 32 ∨ (Rect.block (s := S4x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S4x16x1024x64.size a
  hwx0_1 : ∀ i : grid0.Coords, EltTy.bits .f32 = 32 ∨ (Rect.block (s := S4x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x1024x1024.size a
  hwx0_2 : ∀ i : grid0.Coords, EltTy.bits .i32 = 32 ∨ (Rect.block (s := S4x1024x1024) S1x1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S4x16x1024x1024.size a
  hwx0_3 : ∀ i : grid0.Coords, EltTy.bits .f32 = 32 ∨ (Rect.block (s := S4x16x1024x1024) S1x1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x1024.size a ≤ S4x16x1024x1024.size a
  hwx0_4 : ∀ i : grid0.Coords, EltTy.bits .f32 = 32 ∨ (Rect.block (s := S4x16x1024x1024) S1x1x1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S4x1024x1024 : Shape := ⟨3, ![4, 1024, 1024]⟩
abbrev S_ : Shape := ⟨0, ![]⟩
abbrev S4x16x1024x1024 : Shape := ⟨4, ![4, 16, 1024, 1024]⟩
abbrev S4x1x1024x1024 : Shape := ⟨4, ![4, 1, 1024, 1024]⟩
abbrev S4x16x1024 : Shape := ⟨3, ![4, 16, 1024]⟩
abbrev S4x16x1024x1 : Shape := ⟨4, ![4, 16, 1024, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x1024x1024, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x16x1024x1024, .f32⟩
  | .hbm, ⟨9, _⟩ => ⟨S4x16x1024x1024, .f32⟩
  | .hbm, ⟨10, _⟩ => ⟨S4x16x1024x1024, .f32⟩
  | .hbm, ⟨11, _⟩ => ⟨S4x1x1024x1024, .i32⟩
  | .hbm, ⟨12, _⟩ => ⟨S_, .i32⟩
  | .hbm, ⟨13, _⟩ => ⟨S4x1x1024x1024, .i32⟩
  | .hbm, ⟨14, _⟩ => ⟨S4x1x1024x1024, .i1⟩
  | .hbm, ⟨15, _⟩ => ⟨S_, .f32⟩
  | .hbm, ⟨16, _⟩ => ⟨S4x16x1024x1024, .i1⟩
  | .hbm, ⟨17, _⟩ => ⟨S4x16x1024x1024, .f32⟩
  | .hbm, ⟨18, _⟩ => ⟨S4x16x1024x1024, .f32⟩
  | .hbm, ⟨19, _⟩ => ⟨S_, .f32⟩
  | .hbm, ⟨20, _⟩ => ⟨S4x16x1024, .f32⟩
  | .hbm, ⟨21, _⟩ => ⟨S_, .f32⟩
  | .hbm, ⟨22, _⟩ => ⟨S4x16x1024, .f32⟩
  | .hbm, ⟨23, _⟩ => ⟨S4x16x1024, .f32⟩
  | .hbm, ⟨24, _⟩ => ⟨S4x16x1024x1, .f32⟩
  | .hbm, ⟨25, _⟩ => ⟨S4x16x1024x1024, .f32⟩
  | .hbm, ⟨26, _⟩ => ⟨S4x16x1024x1024, .f32⟩
  | .hbm, ⟨27, _⟩ => ⟨S4x16x1024x1024, .f32⟩
  | .hbm, ⟨28, _⟩ => ⟨S_, .f32⟩
  | .hbm, ⟨29, _⟩ => ⟨S4x16x1024, .f32⟩
  | .hbm, ⟨30, _⟩ => ⟨S4x16x1024x1, .f32⟩
  | .hbm, ⟨31, _⟩ => ⟨S4x16x1024x1024, .f32⟩
  | .hbm, ⟨32, _⟩ => ⟨S4x16x1024x1024, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S4x16x1024x1024 : S_.BroadcastsInDim S4x16x1024x1024 (![] : Fin 0 → Fin S4x16x1024x1024.rank)
  bcast_S4x1024x1024_S4x1x1024x1024_0_2_3 : S4x1024x1024.BroadcastsInDim S4x1x1024x1024 (![0, 2, 3] : Fin 3 → Fin S4x1x1024x1024.rank)
  bcast_S_S4x1x1024x1024 : S_.BroadcastsInDim S4x1x1024x1024 (![] : Fin 0 → Fin S4x1x1024x1024.rank)
  bcast_S4x1x1024x1024_S4x16x1024x1024_0_1_2_3 : S4x1x1024x1024.BroadcastsInDim S4x16x1024x1024 (![0, 1, 2, 3] : Fin 4 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  dot_S4x16x1024x64_S4x16x1024x64_S4x16x1024x1024_3_3_2_2_01_01_wf : DotDims.WF S4x16x1024x64 S4x16x1024x64 S4x16x1024x1024 [3] [3] [2] [2] [0, 1] [0, 1]

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf

class Facts : Prop extends Facts₀ where

variable [Facts]
-- ==== Proof.Spec.lean ====
/-
  What both programs compute, as functions of the argument arrays at the extended reals.

  For a batch b, a head h, a query position q and a key position k, the masked score is
      score(b, h, q, k) = −10⁹                                  where mask(b, q, k) = 0,
                          ∑_d (Q(b, h, q, d) · 1/8) · K(b, h, k, d)   elsewhere,
  and the attention weight is the softmax of the row k ↦ score(b, h, q, k):
      exp(score − max_k score) / ∑_k exp(score − max_k score).
  The scale is written where the kernel has it, on the query entry. The reference scales the finished
  inner product instead; for real entries that is the same number (`scaled_dot`): a sum of reals times a real
  factor is the sum of the terms times that factor.
-/
import Idealize.ShloMosaic.PureOps.Ideal
import Idealize.ShloMosaic.Lib.ValueIdx

noncomputable section

namespace Cert.Attn

open Idealize.ShloMosaic Idealize.ShloMosaic.ValueIdx

/-- Queries and keys: batch × head × position × feature. -/
abbrev SQ : Shape := ⟨4, ![4, 16, 1024, 64]⟩
/-- The mask: batch × query position × key position. -/
abbrev SM : Shape := ⟨3, ![4, 1024, 1024]⟩
/-- Scores and weights: batch × head × query position × key position. -/
abbrev SO : Shape := ⟨4, ![4, 16, 1024, 1024]⟩

/-- The value a masked-out score is replaced by (−10⁹, as both programs spell it). -/
abbrev fill : EReal := Ideal.ofBits .f32 0xCE6E6B28#32

/-- The scale 1/8 = 1/√64, as the kernel spells it. -/
abbrev eighth : EReal := Ideal.ofBits .f32 0x3E000000#32

/-- The scaled inner product of query row (b, h, q) and key row (b, h, k). -/
def dot (Q K : SQ.Idx → EReal) (b : Fin 4) (h : Fin 16) (q k : Fin 1024) : EReal :=
  ∑ d : Fin 64, (Q (ix4 b h q d) * eighth) * K (ix4 b h k d)

/-- The masked score. -/
def score (Q K : SQ.Idx → EReal) (M : SM.Idx → BitVec 32) (b : Fin 4) (h : Fin 16) (q k : Fin 1024) : EReal :=
  Scalar.select (IntOp.cmpi .eq (M (ix3 b q k)) 0#32) fill (dot Q K b h q k)

/-- The softmax of a row of 1024 extended reals, at position k. -/
def softRow (r : Fin 1024 → EReal) (k : Fin 1024) : EReal :=
  Ideal.div (Ideal.exp (r k - Finset.univ.sup r)) (∑ k' : Fin 1024, Ideal.exp (r k' - Finset.univ.sup r))

/-- The array of masked scores. -/
def scores (Q K : SQ.Idx → EReal) (M : SM.Idx → BitVec 32) : SO.Idx → EReal :=
  fun i => score Q K M (i 0) (i 1) (i 2) (i 3)

/-- The array of attention weights: each row of scores through the softmax. -/
def attn (Q K : SQ.Idx → EReal) (M : SM.Idx → BitVec 32) : SO.Idx → EReal :=
  fun i => softRow (fun k' => score Q K M (i 0) (i 1) (i 2) k') (i 3)

/-- The coercion of a finite sum of reals is the sum of the coercions. -/
theorem coe_sum {ι : Type*} (s : Finset ι) (f : ι → ℝ) : ((∑ d ∈ s, f d : ℝ) : EReal) = ∑ d ∈ s, (f d : EReal) := by
  induction s using Finset.cons_induction with
  | empty => simp
  | cons a s ha ih => rw [Finset.sum_cons, Finset.sum_cons, EReal.coe_add, ih]

/-- For real entries, scaling the inner product by 1/8 is scaling each left factor by 1/8. -/
theorem scaled_dot (x y : Fin 64 → EReal) (hx : ∀ d, ∃ r : ℝ, x d = r) (hy : ∀ d, ∃ r : ℝ, y d = r) :
    (∑ d : Fin 64, x d * y d) * ((1 / 8 : ℝ) : EReal) = ∑ d : Fin 64, (x d * ((1 / 8 : ℝ) : EReal)) * y d := by
  choose a ha using hx
  choose b hb using hy
  simp only [ha, hb, ← EReal.coe_mul, ← coe_sum]
  refine congrArg _ ?_
  rw [Finset.sum_mul]
  exact Finset.sum_congr rfl fun d _ => by ring

end Cert.Attn

end
-- ==== Proof.Consts.lean ====
/-
  The float constants the two programs spell, as the extended reals their bit patterns denote: the reference's
  64.0 and 1.0, the kernel's 0.125, the reductions' −∞ and 0; and the one number the two programs reach by
  different routes: the reference divides 1 by the square root of 64, which is 8, so its scale is the
  kernel's literal 1/8.
-/
import Idealize.ShloMosaic.PureOps.Ideal
import Idealize.ShloMosaic.PureOps.Ideal.Laws

noncomputable section

namespace Cert.Attn.Consts

open Idealize.ShloMosaic

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 1.0 denotes the real 1. -/
theorem ofBits_one : Ideal.ofBits .f32 0x3F800000#32 = ((1 : ℝ) : EReal) := by
  simp [Ideal.ofBits, Ideal.ieee, -EReal.coe_mul]; norm_num

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern 0xFF800000 denotes −∞. -/
theorem ofBits_neg_inf : Ideal.ofBits .f32 0xFF800000#32 = (⊥ : EReal) := by
  simp [Ideal.ofBits, Ideal.ieee]

/-- The square root of 64 is 8. -/
theorem sqrt_64 : Real.sqrt 64 = 8 := by
  rw [show (64 : ℝ) = 8 * 8 by norm_num]
  exact Real.sqrt_mul_self (by norm_num)

/-- The reference's scale 1 / √64 is the real 1/8. -/
theorem one_div_sqrt_64 :
    Ideal.div (Ideal.ofBits .f32 0x3F800000#32) (Ideal.sqrt (Ideal.ofBits .f32 0x42800000#32)) = ((1 / 8 : ℝ) : EReal) := by
  rw [ofBits_64, ofBits_one, Ideal.sqrt_coe, if_neg (by norm_num), sqrt_64, Ideal.div_coe (by norm_num)]
  rw [← EReal.coe_mul, one_mul]

end Cert.Attn.Consts

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.RowOps.lean ====
/-
  A row's maximum and a row's sum of a [1024 × 1024] block of extended reals, as the kernel takes them: a
  reduction over axis 1 from the accumulator pattern (−∞ for the maximum, 0 for the sum). At the extended reals the
  fold of `max` from −∞ over a row is the row's supremum, and the reduced vector, laid back along the rows as a
  column broadcast, read at (q, k), is the reduced value of row q. So the kernel's epilogue
      exp(P − rowmax) / rowsum(exp(P − rowmax))
  read at (q, k) is the softmax of row q of P at k.
-/
import Idealize.ShloMosaic.PureOps.Ideal.Laws
import Idealize.ShloMosaic.Lib.ValueIdx
import Idealize.ShloMosaic.Lib.Pipeline.Value
import proofs.«419834_j65481071396432_3_alg».proof.Proof.Spec
import proofs.«419834_j65481071396432_3_alg».proof.Proof.Consts
import proofs.«419834_j65481071396432_3_alg».proof.Proof.LibColumn

noncomputable section

namespace Cert.Attn.Rows

open Idealize.ShloMosaic Idealize.ShloMosaic.ValueIdx

/-- One head's block of scores: query position × key position. -/
abbrev SS : Shape := ⟨2, ![1024, 1024]⟩
/-- One value per query position. -/
abbrev SR : Shape := ⟨1, ![1024]⟩
/-- One value per query position, kept as a column. -/
abbrev SC : Shape := ⟨2, ![1024, 1]⟩

/-- A fold of `max` from any value is the larger of that value and the supremum. -/
theorem fold_max_init {ι : Type*} (s : Finset ι) (f : ι → EReal) (b : EReal) : s.fold max b f = max b (s.sup f) := by
  induction s using Finset.cons_induction with
  | empty => rw [Finset.fold_empty, Finset.sup_empty, max_eq_left bot_le]
  | cons a s ha ih => rw [Finset.fold_cons, Finset.sup_cons, ih, max_left_comm]

/-- Row `q` with the key position `k` inserted on axis 1 is the entry (q, k). -/
theorem lift_row (h : SS.Reduces [1] SR) (q k : Fin 1024) : h.lift (ix1 q) k = ix2 q k := by
  funext b
  match b with
  | ⟨0, _⟩ => exact Fin.ext rfl
  | ⟨1, _⟩ => exact Fin.ext rfl

/-- The kernel's maximum over axis 1 from −∞, at row q: the supremum of the row. -/
theorem rowMax (P : SS.Idx → EReal) (h : SS.Reduces [1] SR) (hφ : FKind.Formats .f32)
    (hacc : (0xFF800000#32 : BitVec FTy.f32.bits) = FKind.maximumf.neutral .f32 hφ) (q : Fin 1024) :
    multiReduction (F := Ideal) (φ := .f32) .maximumf [1] SR P 0xFF800000#32 h hφ hacc (ix1 q)
      = Finset.univ.sup (fun k : Fin 1024 => P (ix2 q k)) := by
  rw [Ideal.multiReduction_maximumf_single, Ideal.ofBits_def, Consts.ofBits_neg_inf, fold_max_init, max_eq_right bot_le]
  exact congrArg (Finset.sup Finset.univ) (funext fun k => congrArg P (lift_row h q k))

/-- The kernel's sum over axis 1 from 0, at row q: the sum of the row. -/
theorem rowSum (P : SS.Idx → EReal) (h : SS.Reduces [1] SR) (hφ : FKind.Formats .f32)
    (hacc : (0x00000000#32 : BitVec FTy.f32.bits) = FKind.add.neutral .f32 hφ) (q : Fin 1024) :
    multiReduction (F := Ideal) (φ := .f32) .add [1] SR P 0x00000000#32 h hφ hacc (ix1 q)
      = ∑ k : Fin 1024, P (ix2 q k) := by
  rw [Ideal.multiReduction_add_single]
  exact Finset.sum_congr rfl fun k _ => congrArg P (lift_row h q k)

/-- A per-row vector cast to a column and broadcast along the rows, read at (q, k), is its value at q. -/
theorem column_apply (w : SR.Idx → EReal) (hsc : SR.ShapeCasts SC) (hbc : SC.Broadcasts SS) (q k : Fin 1024) :
    broadcastTo SS (shapeCast SC w hsc) hbc (ix2 q k) = w (ix1 q) := by
  rw [Cert.Lib.Column.broadcastTo_a1_ab_apply, Cert.Lib.Column.shapeCast_a_a1_apply]

/-- The kernel's epilogue on a block `P` of scores, read at (q, k): the softmax of row q at k. -/
theorem epilogue (P : SS.Idx → EReal) (h : SS.Reduces [1] SR) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : SR.ShapeCasts SC) (hbc : SC.Broadcasts SS) (q k : Fin 1024) :
    Ideal.div
        (Ideal.exp (P (ix2 q k) - multiReduction (F := Ideal) (φ := .f32) .maximumf [1] SR P 0xFF800000#32 h hφ hmax (ix1 q)))
        (multiReduction (F := Ideal) (φ := .f32) .add [1] SR
          (exp (F := Ideal) (φ := .f32) (subf (F := Ideal) (φ := .f32) P
            (broadcastTo SS (shapeCast SC (multiReduction (F := Ideal) (φ := .f32) .maximumf [1] SR P 0xFF800000#32 h hφ hmax) hsc) hbc)))
          0x00000000#32 h hφ hadd (ix1 q))
      = softRow (fun k' => P (ix2 q k')) k := by
  rw [rowSum, rowMax]
  unfold softRow
  refine congrArg _ (Finset.sum_congr rfl fun k' _ => ?_)
  show Ideal.exp (P (ix2 q k') - broadcastTo SS (shapeCast SC _ hsc) hbc (ix2 q k')) = _
  rw [column_apply, rowMax]

end Cert.Attn.Rows

end
-- ==== Proof.KernelBlock.lean ====
/-
  What one grid point of the kernel computes, read entry by entry at the extended reals.

  The point holds one head's query block `P0` and key block `P1` ([1, 1, 1024, 64]) and one batch's mask block
  `P2` ([1, 1024, 1024]). Its score tile at (q, k) is −10⁹ where the mask entry (q, k) is zero and otherwise the
  inner product over the 64 features of the query row q, each entry scaled by 1/8, with the key row k: the
  narrowing to bf16 is the identity on extended reals, the matrix product into a zero accumulator is the plain
  sum, and the unit axes of the blocks are cast away without moving an entry. The second output tile is the
  softmax of each row of the score tile.
-/
import proofs.«419834_j65481071396432_3_alg».proof.Proof.Gen.KernelIdeal.Value
import Idealize.ShloMosaic.PureOps.Ideal.Laws
import Idealize.ShloMosaic.Lib.ValueIdx
import Idealize.ShloMosaic.Lib.Pipeline.Value
import proofs.«419834_j65481071396432_3_alg».proof.Proof.Spec
import proofs.«419834_j65481071396432_3_alg».proof.Proof.RowOps

noncomputable section

namespace Cert.Attn.Block

open Cert.KernelIdeal Cert.KernelIdeal.Gen Idealize.ShloMosaic Idealize.ShloMosaic.ValueIdx

/-! ### The matrix product's operand indices: output (q, k) at contraction position d reads query (q, d) and key (k, d) -/

theorem lhs_0 (i : S1024x1024.Idx) (p : dot_S1024x64_S1024x64_S1024x1024_1_1_0_0_n_n.contr.Idx) :
    (dot_S1024x64_S1024x64_S1024x1024_1_1_0_0_n_n.lhsIdx i p 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_1 (i : S1024x1024.Idx) (p : dot_S1024x64_S1024x64_S1024x1024_1_1_0_0_n_n.contr.Idx) :
    (dot_S1024x64_S1024x64_S1024x1024_1_1_0_0_n_n.lhsIdx i p 1).val = (p ⟨0, by decide⟩).val :=
  dot_S1024x64_S1024x64_S1024x1024_1_1_0_0_n_n.lhsIdx_val_of_single rfl i p
theorem rhs_0 (i : S1024x1024.Idx) (p : dot_S1024x64_S1024x64_S1024x1024_1_1_0_0_n_n.contr.Idx) :
    (dot_S1024x64_S1024x64_S1024x1024_1_1_0_0_n_n.rhsIdx i p 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_1 (i : S1024x1024.Idx) (p : dot_S1024x64_S1024x64_S1024x1024_1_1_0_0_n_n.contr.Idx) :
    (dot_S1024x64_S1024x64_S1024x1024_1_1_0_0_n_n.rhsIdx i p 1).val = (p ⟨0, by decide⟩).val :=
  dot_S1024x64_S1024x64_S1024x1024_1_1_0_0_n_n.rhsIdx_val_of_single rfl i p

/-- The product of a [1024, 64] matrix with the transpose of another, into zeros, at (q, k): the inner product of
    row q of the first with row k of the second. -/
theorem matmul_at (A B : FVec Ideal S1024x64 .bf16) (q k : Fin 1024) :
    matmul (F := Ideal) dot_S1024x64_S1024x64_S1024x1024_1_1_0_0_n_n none A B (constant (F := Ideal) S1024x1024 .f32 0x00000000#32) (ix2 q k)
      = ∑ d : Fin 64, A (ix2 q d) * B (ix2 k d) := by
  simp only [matmul]
  rw [Ideal.matmul_constant_zero_apply, ← Equiv.sum_comp (ValueIdx.contrEquiv1 dot_S1024x64_S1024x64_S1024x1024_1_1_0_0_n_n 64 rfl rfl).symm]
  refine Finset.sum_congr rfl fun d _ => ?_
  have hd := ValueIdx.contrEquiv1_symm_val dot_S1024x64_S1024x64_S1024x1024_1_1_0_0_n_n 64 rfl rfl d
  have el : dot_S1024x64_S1024x64_S1024x1024_1_1_0_0_n_n.lhsIdx (ix2 q k) ((ValueIdx.contrEquiv1 dot_S1024x64_S1024x64_S1024x1024_1_1_0_0_n_n 64 rfl rfl).symm d) = ix2 q d := funext fun a => Fin.ext (by
    match a with
    | ⟨0, _⟩ => exact lhs_0 _ _
    | ⟨1, _⟩ => exact (lhs_1 _ _).trans hd)
  have er : dot_S1024x64_S1024x64_S1024x1024_1_1_0_0_n_n.rhsIdx (ix2 q k) ((ValueIdx.contrEquiv1 dot_S1024x64_S1024x64_S1024x1024_1_1_0_0_n_n 64 rfl rfl).symm d) = ix2 k d := funext fun a => Fin.ext (by
    match a with
    | ⟨0, _⟩ => exact rhs_0 _ _
    | ⟨1, _⟩ => exact (rhs_1 _ _).trans hd)
  rw [el, er]

/-! ### The blocks' unit axes cast away -/

/-- A [1, 1, 1024, 64] block seen as a [1024, 64] matrix: entry (r, d) is the block's (0, 0, r, d). -/
theorem cast_rows (P : Vec Ideal S1x1x1024x64 .f32) (r : Fin 1024) (d : Fin 64) :
    shapeCast S1024x64 P shapeCasts_S1x1x1024x64_S1024x64 (ix2 r d) = P (ix4 0 0 r d) :=
  shapeCast_apply P _ (ix2 r d) (ix4 0 0 r d) (by
    rw [Shape.rowMajor_val_two, Shape.rowMajor_val_four]
    show ((0 * 1 + 0) * 1024 + r.val) * 64 + d.val = r.val * 64 + d.val
    omega)

/-- A [1, 1024, 1024] mask block seen as a [1024, 1024] matrix: entry (q, k) is the block's (0, q, k). -/
theorem cast_mask (P : Vec Ideal S1x1024x1024 .i32) (q k : Fin 1024) :
    shapeCast S1024x1024 P shapeCasts_S1x1024x1024_S1024x1024 (ix2 q k) = P (ix3 0 q k) :=
  shapeCast_apply P _ (ix2 q k) (ix3 0 q k) (by
    rw [Shape.rowMajor_val_two, Shape.rowMajor_val_three]
    show (0 * 1024 + q.val) * 1024 + k.val = q.val * 1024 + k.val
    omega)

/-! ### The score tile -/

/-- The inner product a point takes for (q, k), from its two blocks. -/
def blockDot (P0 P1 : Vec Ideal S1x1x1024x64 .f32) (q k : Fin 1024) : EReal :=
  ∑ d : Fin 64, (P0 (ix4 0 0 q d) * eighth) * P1 (ix4 0 0 k d)

/-- The masked score a point takes for (q, k), from its three blocks. -/
def blockScore (P0 P1 : Vec Ideal S1x1x1024x64 .f32) (P2 : Vec Ideal S1x1024x1024 .i32) (q k : Fin 1024) : EReal :=
  Scalar.select (IntOp.cmpi .eq (P2 (ix3 0 q k)) 0#32) fill (blockDot P0 P1 q k)

/-- The body's score tile at (q, k). -/
theorem pay1_apply (P0 P1 : Vec Ideal S1x1x1024x64 .f32) (P2 : Vec Ideal S1x1024x1024 .i32) (q k : Fin 1024) :
    k0_pay1 (F := Ideal) P0 P1 P2 (ix2 q k) = blockScore P0 P1 P2 q k := by
  unfold k0_pay1 blockScore blockDot
  rw [select_apply]
  refine congr (congrArg (fun c => Scalar.select c fill) ?_) ?_
  · show IntOp.cmpi .eq (shapeCast S1024x1024 P2 shapeCasts_S1x1024x1024_S1024x1024 (ix2 q k)) 0#32 = _
    rw [cast_mask]
  · refine (matmul_at _ _ q k).trans (Finset.sum_congr rfl fun d _ => ?_)
    show (shapeCast S1024x64 P0 shapeCasts_S1x1x1024x64_S1024x64 (ix2 q d) * eighth) * shapeCast S1024x64 P1 shapeCasts_S1x1x1024x64_S1024x64 (ix2 k d) = _
    rw [cast_rows, cast_rows]

/-! ### What a point leaves in its two output tiles, entry by entry -/

/-- The score tile's entry under output block index `y`: the masked score of (y 2, y 3). -/
theorem scoreTile_apply (P0 P1 : Vec Ideal S1x1x1024x64 .f32) (P2 : Vec Ideal S1x1024x1024 .i32) (y : S1x1x1024x1024.Idx) :
    Value.E4 (F := Ideal) P0 P1 P2 y = blockScore P0 P1 P2 (y 2) (y 3) := by
  show k0_pay1 (F := Ideal) P0 P1 P2 (Value.ix4_0 y) = _
  have e : Value.ix4_0 y = ix2 (y 2) (y 3) := funext fun a => Fin.ext (by
    match a with
    | ⟨0, _⟩ => rfl
    | ⟨1, _⟩ => rfl)
  rw [e]
  exact pay1_apply P0 P1 P2 (y 2) (y 3)

/-- The weight tile's entry under output block index `y`: the softmax of the score tile's row y 2, at y 3. -/
theorem weightTile_apply (P0 P1 : Vec Ideal S1x1x1024x64 .f32) (P2 : Vec Ideal S1x1024x1024 .i32) (y : S1x1x1024x1024.Idx) :
    Value.E3 (F := Ideal) P0 P1 P2 y = softRow (fun k' => blockScore P0 P1 P2 (y 2) k') (y 3) := by
  have e0 : Value.ix3_0 y = ix2 (y 2) (y 3) := funext fun a => Fin.ext (by
    match a with
    | ⟨0, _⟩ => rfl
    | ⟨1, _⟩ => rfl)
  have e1 : Value.ix3_1 y = ix1 (y 2) := funext fun a => Fin.ext (by
    match a with
    | ⟨0, _⟩ => rfl)
  have e2 : Value.ix3_2 y = ix1 (y 2) := funext fun a => Fin.ext (by
    match a with
    | ⟨0, _⟩ => rfl)
  show Ideal.div (Ideal.exp (k0_pay1 (F := Ideal) P0 P1 P2 (Value.ix3_0 y)
      - multiReduction (F := Ideal) (φ := .f32) .maximumf [1] S1024 (k0_pay1 (F := Ideal) P0 P1 P2) 0xFF800000#32 reduces_S1024x1024_S1024 (.inl rfl) rfl (Value.ix3_1 y)))
    (multiReduction (F := Ideal) (φ := .f32) .add [1] S1024 (exp (F := Ideal) (φ := .f32) (subf (F := Ideal) (φ := .f32) (k0_pay1 (F := Ideal) P0 P1 P2)
      (broadcastTo S1024x1024 (shapeCast S1024x1 (multiReduction (F := Ideal) (φ := .f32) .maximumf [1] S1024 (k0_pay1 (F := Ideal) P0 P1 P2) 0xFF800000#32 reduces_S1024x1024_S1024 (.inl rfl) rfl) shapeCasts_S1024_S1024x1) broadcasts_S1024x1_S1024x1024)))
      0x00000000#32 reduces_S1024x1024_S1024 (.inl rfl) rfl (Value.ix3_2 y)) = _
  rw [e0, e1, e2]
  refine (Rows.epilogue (k0_pay1 (F := Ideal) P0 P1 P2) reduces_S1024x1024_S1024 (.inl rfl) rfl rfl shapeCasts_S1024_S1024x1 broadcasts_S1024x1_S1024x1024 (y 2) (y 3)).trans ?_
  exact congrArg (fun r => softRow r (y 3)) (funext fun k' => pay1_apply P0 P1 P2 (y 2) k')

end Cert.Attn.Block

end
-- ==== Proof.KernelArray.lean ====
/-
  From the kernel's grid points to its two result arrays.

  The grid has one point per (batch b, head h). The point's query and key blocks are the rows (b, h, ·, ·) of the two
  arguments, its mask block the rows (b, ·, ·) of the mask, and its two output blocks the rows (b, h, ·, ·) of the
  results. So what a point writes back is the restriction to its block of ONE function of the whole argument
  arrays — the masked scores, resp. their row softmax — and since the 64 blocks tile the result arrays, each
  array ends holding that function.
-/
import proofs.«419834_j65481071396432_3_alg».proof.Proof.KernelBlock

noncomputable section

open Idealize.ShloMosaic Idealize.ShloMosaic.TcCoe Idealize.SL.Sem
open Idealize.ShloMosaic.Pipeline (Dat)

namespace Cert.Attn.Array

open Cert.KernelIdeal Cert.KernelIdeal.Gen Cert.KernelIdeal.Value Idealize.ShloMosaic.ValueIdx Cert.Attn.Block

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the grid: every window's block sits at the output's batch and head, and at
    offset zero on the position and feature axes. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 3) = win0_3.index t (0 : Fin 4) ∧ win0_2.index t (1 : Fin 3) = 0 ∧ win0_2.index t (2 : Fin 3) = 0
    ∧ win0_3.index t (2 : Fin 4) = 0 ∧ win0_3.index t (3 : Fin 4) = 0
    ∧ win0_4.index t (0 : Fin 4) = win0_3.index t (0 : Fin 4) ∧ win0_4.index t (1 : Fin 4) = win0_3.index t (1 : Fin 4)
    ∧ win0_4.index t (2 : Fin 4) = 0 ∧ win0_4.index t (3 : Fin 4) = 0 :=
  (by decide +kernel : ∀ t : Fin grid0.N, _)

/-- Every (batch, head) is some point's. -/
theorem idx_onto : ∀ (b : Fin 4) (h : Fin 16), ∃ t : Fin cfg0.N, win0_3.index t = ![b.val, h.val, 0, 0] :=
  (by decide +kernel : ∀ (b : Fin 4) (h : Fin 16), ∃ t : Fin grid0.N, win0_3.index t = ![b.val, h.val, 0, 0])

/-! ### The input blocks as rows of the arguments -/

/-- The query block at point `t`: entry `x` is the query array at the point's batch and head, position x 2, feature x 3. -/
theorem qblk_apply (c : Dev nD) (t : Fin cfg0.N) (x : S1x1x1024x64.Idx) (k : S4x16x1024x64.Idx)
    (h0 : (k 0).val = win0_3.index t (0 : Fin 4)) (h1 : (k 1).val = win0_3.index t (1 : Fin 4))
    (h2 : (k 2).val = (x 2).val) (h3 : (k 3).val = (x 3).val) :
    (iblk m c 0 t : Vec Ideal S1x1x1024x64 .f32) x = (V m c main_arg0 : S4x16x1024x64.Idx → EReal) k := by
  obtain ⟨e0, e1, e2, e3, -⟩ := idx_facts t
  have hx0 : (x 0).val < 1 := (x 0).isLt
  have hx1 : (x 1).val < 1 := (x 1).isLt
  unfold iblk
  rw [View.read_apply]
  show V m c main_arg0 _ = V m c main_arg0 _
  congr 1
  funext a
  apply Fin.ext
  match a with
  | ⟨0, _⟩ => show win0_0.index t (0 : Fin 4) * 1 + 1 * (x 0).val = (k 0).val; omega
  | ⟨1, _⟩ => show win0_0.index t (1 : Fin 4) * 1 + 1 * (x 1).val = (k 1).val; omega
  | ⟨2, _⟩ => show win0_0.index t (2 : Fin 4) * 1024 + 1 * (x 2).val = (k 2).val; omega
  | ⟨3, _⟩ => show win0_0.index t (3 : Fin 4) * 64 + 1 * (x 3).val = (k 3).val; omega

/-- The key block at point `t`, likewise. -/
theorem kblk_apply (c : Dev nD) (t : Fin cfg0.N) (x : S1x1x1024x64.Idx) (k : S4x16x1024x64.Idx)
    (h0 : (k 0).val = win0_3.index t (0 : Fin 4)) (h1 : (k 1).val = win0_3.index t (1 : Fin 4))
    (h2 : (k 2).val = (x 2).val) (h3 : (k 3).val = (x 3).val) :
    (iblk m c 1 t : Vec Ideal S1x1x1024x64 .f32) x = (V m c main_arg1 : S4x16x1024x64.Idx → EReal) k := by
  obtain ⟨-, -, -, -, e0, e1, e2, e3, -⟩ := idx_facts t
  have hx0 : (x 0).val < 1 := (x 0).isLt
  have hx1 : (x 1).val < 1 := (x 1).isLt
  unfold iblk
  rw [View.read_apply]
  show V m c main_arg1 _ = V m c main_arg1 _
  congr 1
  funext a
  apply Fin.ext
  match a with
  | ⟨0, _⟩ => show win0_1.index t (0 : Fin 4) * 1 + 1 * (x 0).val = (k 0).val; omega
  | ⟨1, _⟩ => show win0_1.index t (1 : Fin 4) * 1 + 1 * (x 1).val = (k 1).val; omega
  | ⟨2, _⟩ => show win0_1.index t (2 : Fin 4) * 1024 + 1 * (x 2).val = (k 2).val; omega
  | ⟨3, _⟩ => show win0_1.index t (3 : Fin 4) * 64 + 1 * (x 3).val = (k 3).val; omega

/-- The mask block at point `t`: entry `x` is the mask at the point's batch, positions x 1 and x 2. -/
theorem mblk_apply (c : Dev nD) (t : Fin cfg0.N) (x : S1x1024x1024.Idx) (k : S4x1024x1024.Idx)
    (h0 : (k 0).val = win0_3.index t (0 : Fin 4)) (h1 : (k 1).val = (x 1).val) (h2 : (k 2).val = (x 2).val) :
    (iblk m c 2 t : Vec Ideal S1x1024x1024 .i32) x = (V m c main_arg3 : S4x1024x1024.Idx → BitVec 32) k := by
  obtain ⟨-, -, -, -, -, -, -, -, e0, e1, e2, -⟩ := idx_facts t
  have hx0 : (x 0).val < 1 := (x 0).isLt
  unfold iblk
  rw [View.read_apply]
  show V m c main_arg3 _ = V m c main_arg3 _
  congr 1
  funext a
  apply Fin.ext
  match a with
  | ⟨0, _⟩ => show win0_2.index t (0 : Fin 3) * 1 + 1 * (x 0).val = (k 0).val; omega
  | ⟨1, _⟩ => show win0_2.index t (1 : Fin 3) * 1024 + 1 * (x 1).val = (k 1).val; omega
  | ⟨2, _⟩ => show win0_2.index t (2 : Fin 3) * 1024 + 1 * (x 2).val = (k 2).val; omega

/-- The score a point takes for (q, k) from its blocks is the score of the whole arrays at the point's batch and head. -/
theorem blockScore_eq (c : Dev nD) (t : Fin cfg0.N) (b : Fin 4) (h : Fin 16)
    (hb : b.val = win0_3.index t (0 : Fin 4)) (hh : h.val = win0_3.index t (1 : Fin 4)) (q k : Fin 1024) :
    blockScore (iblk m c 0 t) (iblk m c 1 t) (iblk m c 2 t) q k
      = score (V m c main_arg0) (V m c main_arg1) (V m c main_arg3) b h q k := by
  unfold blockScore blockDot score dot
  refine congr (congrArg (fun w => Scalar.select (IntOp.cmpi .eq w 0#32) fill) (mblk_apply m c t (ix3 0 q k) (ix3 b q k) hb rfl rfl))
    (Finset.sum_congr rfl fun d _ => ?_)
  exact congr (congrArg (fun u v => (u * eighth) * v) (qblk_apply m c t (ix4 0 0 q d) (ix4 b h q d) hb hh rfl rfl))
    (kblk_apply m c t (ix4 0 0 k d) (ix4 b h k d) hb hh rfl rfl)

/-! ### What a point writes back -/

/-- Point `t` writes back, to the array of scores, block `t` of the masked scores of the whole arguments. -/
theorem flushedScores (c : Dev nD) (t : Fin cfg0.N) :
    (dats m 0 c).flushed 4 t
      = ((cfg0.win 4).blk t).view.read (Elt Ideal) (scores (V m c main_arg0) (V m c main_arg1) (V m c main_arg3)) := by
  rw [Value.flushed4]
  unfold out0_4
  simp only [View.ld_unit_zero (S := S1x1x1024x64) hz4, View.ld_unit_zero (S := S1x1024x1024) hz3]
  obtain ⟨-, -, -, -, -, -, -, -, -, -, -, -, -, e40, e41, e42, e43⟩ := idx_facts t
  funext j
  show View.canon (Val := Elt Ideal) (e := .f32) [⟨r0_2, k0_pay2 (F := Ideal) (iblk m c 0 t) (iblk m c 1 t) (iblk m c 2 t)⟩] j
    = scores (V m c main_arg0) (V m c main_arg1) (V m c main_arg3) (((cfg0.win 4).blk t).view.emb j)
  refine (Value.canon4_eq (iblk m c 0 t) (iblk m c 1 t) (iblk m c 2 t) j).trans ?_
  refine (scoreTile_apply (iblk m c 0 t) (iblk m c 1 t) (iblk m c 2 t) j).trans ?_
  have hj0 : (j 0).val < 1 := (j 0).isLt
  have hj1 : (j 1).val < 1 := (j 1).isLt
  have hb : ((((cfg0.win 4).blk t).view.emb j) 0).val = win0_3.index t (0 : Fin 4) := by
    show win0_4.index t (0 : Fin 4) * 1 + 1 * (j 0).val = _; omega
  have hh : ((((cfg0.win 4).blk t).view.emb j) 1).val = win0_3.index t (1 : Fin 4) := by
    show win0_4.index t (1 : Fin 4) * 1 + 1 * (j 1).val = _; omega
  have hq : (((cfg0.win 4).blk t).view.emb j) 2 = j 2 := Fin.ext (by
    show win0_4.index t (2 : Fin 4) * 1024 + 1 * (j 2).val = (j 2).val; omega)
  have hk : (((cfg0.win 4).blk t).view.emb j) 3 = j 3 := Fin.ext (by
    show win0_4.index t (3 : Fin 4) * 1024 + 1 * (j 3).val = (j 3).val; omega)
  show _ = score (V m c main_arg0) (V m c main_arg1) (V m c main_arg3) ((((cfg0.win 4).blk t).view.emb j) 0)
    ((((cfg0.win 4).blk t).view.emb j) 1) ((((cfg0.win 4).blk t).view.emb j) 2) ((((cfg0.win 4).blk t).view.emb j) 3)
  rw [hq, hk]
  exact blockScore_eq m c t _ _ hb hh (j 2) (j 3)

/-- Point `t` writes back, to the array of weights, block `t` of the row softmax of the masked scores of the whole arguments. -/
theorem flushedWeights (c : Dev nD) (t : Fin cfg0.N) :
    (dats m 0 c).flushed 3 t
      = ((cfg0.win 3).blk t).view.read (Elt Ideal) (attn (V m c main_arg0) (V m c main_arg1) (V m c main_arg3)) := by
  rw [Value.flushed3]
  unfold out0_3
  simp only [View.ld_unit_zero (S := S1x1x1024x64) hz4, View.ld_unit_zero (S := S1x1024x1024) hz3]
  obtain ⟨-, -, -, -, -, -, -, -, -, -, -, e32, e33, -⟩ := idx_facts t
  funext j
  show View.canon (Val := Elt Ideal) (e := .f32) [⟨r0_2, k0_pay3 (F := Ideal) (iblk m c 0 t) (iblk m c 1 t) (iblk m c 2 t)⟩] j
    = attn (V m c main_arg0) (V m c main_arg1) (V m c main_arg3) (((cfg0.win 3).blk t).view.emb j)
  refine (Value.canon3_eq (iblk m c 0 t) (iblk m c 1 t) (iblk m c 2 t) j).trans ?_
  refine (weightTile_apply (iblk m c 0 t) (iblk m c 1 t) (iblk m c 2 t) j).trans ?_
  have hj0 : (j 0).val < 1 := (j 0).isLt
  have hj1 : (j 1).val < 1 := (j 1).isLt
  have hb : ((((cfg0.win 3).blk t).view.emb j) 0).val = win0_3.index t (0 : Fin 4) := by
    show win0_3.index t (0 : Fin 4) * 1 + 1 * (j 0).val = _; omega
  have hh : ((((cfg0.win 3).blk t).view.emb j) 1).val = win0_3.index t (1 : Fin 4) := by
    show win0_3.index t (1 : Fin 4) * 1 + 1 * (j 1).val = _; omega
  have hq : (((cfg0.win 3).blk t).view.emb j) 2 = j 2 := Fin.ext (by
    show win0_3.index t (2 : Fin 4) * 1024 + 1 * (j 2).val = (j 2).val; omega)
  have hk : (((cfg0.win 3).blk t).view.emb j) 3 = j 3 := Fin.ext (by
    show win0_3.index t (3 : Fin 4) * 1024 + 1 * (j 3).val = (j 3).val; omega)
  show _ = softRow (fun k' => score (V m c main_arg0) (V m c main_arg1) (V m c main_arg3) ((((cfg0.win 3).blk t).view.emb j) 0)
    ((((cfg0.win 3).blk t).view.emb j) 1) ((((cfg0.win 3).blk t).view.emb j) 2) k') ((((cfg0.win 3).blk t).view.emb j) 3)
  rw [hq, hk]
  exact congrArg (fun r => softRow r (j 3)) (funext fun k' => blockScore_eq m c t _ _ hb hh (j 2) k')

/-! ### The blocks tile the result arrays -/

/-- An index of the weights array is in point `t`'s block iff each coordinate is in the block's range on its axis. -/
theorem mem_blk3 (t : Fin cfg0.N) (i : S4x16x1024x1024.Idx) :
    i ∈ ((cfg0.win 3).blk t).view.set ↔ ∀ a : Fin 4, win0_3.index t a * S1x1x1024x1024.size a ≤ (i a).val ∧ (i a).val < win0_3.index t a * S1x1x1024x1024.size a + S1x1x1024x1024.size a := by
  show i ∈ ((View.whole main_v0_0).slice (win0_3.rect t)).set ↔ _
  rw [View.set_slice_whole, Rect.mem_set_unit]
  exact Iff.rfl

/-- The same for the scores array. -/
theorem mem_blk4 (t : Fin cfg0.N) (i : S4x16x1024x1024.Idx) :
    i ∈ ((cfg0.win 4).blk t).view.set ↔ ∀ a : Fin 4, win0_4.index t a * S1x1x1024x1024.size a ≤ (i a).val ∧ (i a).val < win0_4.index t a * S1x1x1024x1024.size a + S1x1x1024x1024.size a := by
  show i ∈ ((View.whole main_v0_1).slice (win0_4.rect t)).set ↔ _
  rw [View.set_slice_whole, Rect.mem_set_unit]
  exact Iff.rfl

/-- Every index of the weights array is in the block of the point of its batch and head. -/
theorem coverWeights (i : S4x16x1024x1024.Idx) :
    ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 1024 := (i 2).isLt
  have hi3 : (i 3).val < 1024 := (i 3).isLt
  obtain ⟨t, ht⟩ := idx_onto ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 1024 ≤ (i 3).val ∧ (i 3).val < win0_3.index t (3 : Fin 4) * 1024 + 1024; omega

/-- Every index of the scores array is in the block of the point of its batch and head. -/
theorem coverScores (i : S4x16x1024x1024.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 1024 := (i 2).isLt
  have hi3 : (i 3).val < 1024 := (i 3).isLt
  obtain ⟨t, ht⟩ := idx_onto ⟨(i 0).val, hi0⟩ ⟨(i 1).val, hi1⟩
  obtain ⟨-, -, -, -, -, -, -, -, -, -, -, -, -, e40, e41, e42, e43⟩ := idx_facts t
  have q0 : win0_3.index t (0 : Fin 4) = (i 0).val := congrFun ht 0
  have q1 : win0_3.index t (1 : Fin 4) = (i 1).val := congrFun ht 1
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 1024 ≤ (i 3).val ∧ (i 3).val < win0_4.index t (3 : Fin 4) * 1024 + 1024; omega

/-! ### The result arrays, and the run -/

/-- The weights array after the run: the row softmax of the masked scores. -/
theorem finalWeights (c : Dev nD) :
    (dats m 0 c).arrAt 3 cfg0.N = attn (V m c main_arg0) (V m c main_arg1) (V m c main_arg3) :=
  (dats m 0 c).arrAt_eq_of_cover 3 _ (fun t _ => flushedWeights m c t) coverWeights

/-- The scores array after the run: the masked scores. -/
theorem finalScores (c : Dev nD) :
    (dats m 0 c).arrAt 4 cfg0.N = scores (V m c main_arg0) (V m c main_arg1) (V m c main_arg3) :=
  (dats m 0 c).arrAt_eq_of_cover 4 _ (fun t _ => flushedScores m c t) coverScores

/-- The kernel's run: both result arrays as functions of the arguments as launched, the arguments unchanged. -/
theorem run : θ_run defs (onTc (τ := τ) (main (F := Ideal))) ⟨m, fun _ => 0, ρ⟩ fun r => ∀ c : Dev nD,
      r.2.mem ((c : Thread nD τ).loc main_v0_0)
        = attn (m ((c : Thread nD τ).loc main_arg0)) (m ((c : Thread nD τ).loc main_arg1)) (m ((c : Thread nD τ).loc main_arg3))
      ∧ r.2.mem ((c : Thread nD τ).loc main_v0_1)
        = scores (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (finalWeights m c), (h c).2.1.trans (finalScores m c), (h c).2.2⟩)
    (Value.run_blocks m ρ)

end Cert.Attn.Array

end
-- ==== Proof.Reference.lean ====
/-
  The reference, read entry by entry at the extended reals.

  Its scores: the inner product of query row (b, h, q) and key row (b, h, k) over the 64 features, times
  1 / √64, replaced by −10⁹ where the mask entry (b, q, k) is zero (the mask is laid over the heads by a
  broadcast, which does not move an entry). With real entries the scale can be moved onto the query entries
  (`scaled_dot`), and 1 / √64 is the kernel's 1/8, so this is the specification's score.
  Its weights: the maximum over the key axis from −∞ is the row's supremum (the further maximum with −∞ changes
  nothing), the sum over the key axis from 0 is the row's sum, and both are laid back along the rows by
  broadcasts; so the weights are the row softmax of the scores.
-/
import proofs.«419834_j65481071396432_3_alg».proof.Proof.Gen.ReferenceIdeal.Read
import Idealize.ShloMosaic.PureOps.Ideal.Laws
import Idealize.ShloMosaic.Lib.ValueIdx
import proofs.«419834_j65481071396432_3_alg».proof.Proof.Spec
import proofs.«419834_j65481071396432_3_alg».proof.Proof.Consts
import proofs.«419834_j65481071396432_3_alg».proof.Proof.RowOps

noncomputable section

namespace Cert.Attn.Ref

open Cert.ReferenceIdeal Cert.ReferenceIdeal.Gen Cert.ReferenceIdeal.Read Idealize.ShloMosaic Idealize.ShloMosaic.ValueIdx

variable (x0 x1 : (⟨S4x16x1024x64, .f32⟩ : BufTy).Contents (Elt Ideal)) (x3 : (⟨S4x1024x1024, .i32⟩ : BufTy).Contents (Elt Ideal))

/-! ### Where each operation reads its operands -/

theorem lidx_eq (b : Fin 4) (h : Fin 16) (q k : Fin 1024) (d : Fin 64) : lidx_main_v2 (ix4 b h q k) d = ix4 b h q d :=
  funext fun a => Fin.ext (by
    match a with
    | ⟨0, _⟩ => rfl
    | ⟨1, _⟩ => rfl
    | ⟨2, _⟩ => rfl
    | ⟨3, _⟩ => rfl)

theorem ridx_eq (b : Fin 4) (h : Fin 16) (q k : Fin 1024) (d : Fin 64) : ridx_main_v2 (ix4 b h q k) d = ix4 b h k d :=
  funext fun a => Fin.ext (by
    match a with
    | ⟨0, _⟩ => rfl
    | ⟨1, _⟩ => rfl
    | ⟨2, _⟩ => rfl
    | ⟨3, _⟩ => rfl)

theorem midx_eq (b : Fin 4) (h : Fin 16) (q k : Fin 1024) : idx_main_v5 (idx_main_call0_v0 (ix4 b h q k)) = ix3 b q k :=
  funext fun a => Fin.ext (by
    match a with
    | ⟨0, _⟩ => rfl
    | ⟨1, _⟩ => rfl
    | ⟨2, _⟩ => rfl)

theorem rowidx_max (b : Fin 4) (h : Fin 16) (q k : Fin 1024) : idx_main_v12 (idx_main_v13 (ix4 b h q k)) = ix3 b h q :=
  funext fun a => Fin.ext (by
    match a with
    | ⟨0, _⟩ => rfl
    | ⟨1, _⟩ => rfl
    | ⟨2, _⟩ => rfl)

theorem rowidx_sum (b : Fin 4) (h : Fin 16) (q k : Fin 1024) : idx_main_v17 (idx_main_v18 (ix4 b h q k)) = ix3 b h q :=
  funext fun a => Fin.ext (by
    match a with
    | ⟨0, _⟩ => rfl
    | ⟨1, _⟩ => rfl
    | ⟨2, _⟩ => rfl)

theorem sumidx_eq (b : Fin 4) (h : Fin 16) (q k : Fin 1024) : idx_main_v16 (ix3 b h q) k = ix4 b h q k :=
  funext fun a => Fin.ext (by
    match a with
    | ⟨0, _⟩ => rfl
    | ⟨1, _⟩ => rfl
    | ⟨2, _⟩ => rfl
    | ⟨3, _⟩ => rfl)

/-! ### The scores -/

/-- The reference's masked score at (b, h, q, k), for real queries and keys, is the specification's. -/
theorem score_apply (hx0 : ∀ i, ∃ r : ℝ, x0 i = r) (hx1 : ∀ i, ∃ r : ℝ, x1 i = r) (b : Fin 4) (h : Fin 16) (q k : Fin 1024) :
    val_main_v8 (F := Ideal) x0 x1 x3 (ix4 b h q k) = score x0 x1 x3 b h q k := by
  rw [val_main_v8_apply, val_main_call0_v0_apply, val_main_v7_apply, val_main_v5_apply, val_main_v6_apply, val_main_c_apply,
    val_main_call0_v1_apply, val_main_cst_1_apply, val_main_v4_apply, val_main_v2_apply, val_main_v3_apply, val_main_v1_apply,
    val_main_cst_0_apply, val_main_v0_apply, val_main_cst_apply, midx_eq]
  unfold score dot
  refine congrArg (Scalar.select (IntOp.cmpi .eq (x3 (ix3 b q k)) 0#32) fill) ?_
  show (∑ d : Fin 64, x0 (lidx_main_v2 (ix4 b h q k) d) * x1 (ridx_main_v2 (ix4 b h q k) d))
      * Ideal.div (Ideal.ofBits .f32 0x3F800000#32) (Ideal.sqrt (Ideal.ofBits .f32 0x42800000#32)) = _
  rw [Consts.one_div_sqrt_64]
  simp only [lidx_eq, ridx_eq]
  rw [scaled_dot _ _ (fun d => hx0 _) (fun d => hx1 _)]
  show _ = ∑ d : Fin 64, (x0 (ix4 b h q d) * Ideal.ofBits .f32 0x3E000000#32) * x1 (ix4 b h k d)
  rw [Consts.ofBits_eighth]

/-! ### The row maximum and the row sum -/

/-- Row (b, h, q) with the key position `k` inserted on axis 3 is the entry (b, h, q, k). -/
theorem lift_row (hr : S4x16x1024x1024.Reduces [3] S4x16x1024) (b : Fin 4) (h : Fin 16) (q k : Fin 1024) :
    hr.lift (ix3 b h q) k = ix4 b h q k := by
  funext a
  match a with
  | ⟨0, _⟩ => exact Fin.ext rfl
  | ⟨1, _⟩ => exact Fin.ext rfl
  | ⟨2, _⟩ => exact Fin.ext rfl
  | ⟨3, _⟩ => exact Fin.ext rfl

/-- The reference's maximum over the key axis from −∞, at row (b, h, q): the supremum of the row. -/
theorem hostRowMax (X : S4x16x1024x1024.Idx → EReal) (b : Fin 4) (h : Fin 16) (q : Fin 1024) :
    Host.reduce (FloatOps.maximumf (F := Ideal) (φ := .f32)) X (val_main_cst_2 (F := Ideal)) reducesTo_S4x16x1024x1024_S4x16x1024_d3 h_S_ (ix3 b h q)
      = Finset.univ.sup (fun k : Fin 1024 => X (ix4 b h q k)) := by
  have hr : S4x16x1024x1024.Reduces [3] S4x16x1024 := by decide
  rw [Host.reduce_eq_fold_single _ X _ reducesTo_S4x16x1024x1024_S4x16x1024_d3 hr h_S_]
  refine (Rows.fold_max_init _ _ _).trans ?_
  show max (Ideal.ofBits .f32 0xFF800000#32) _ = _
  rw [Consts.ofBits_neg_inf, max_eq_right bot_le]
  exact congrArg (Finset.sup Finset.univ) (funext fun k => congrArg X (lift_row hr b h q k))

/-- The reference's row maximum laid back along the row, read at (b, h, q, k). -/
theorem max_apply (b : Fin 4) (h : Fin 16) (q k : Fin 1024) :
    val_main_v13 (F := Ideal) x0 x1 x3 (ix4 b h q k)
      = Finset.univ.sup (fun k' : Fin 1024 => val_main_v8 (F := Ideal) x0 x1 x3 (ix4 b h q k')) := by
  rw [val_main_v13_apply, val_main_v12_apply, val_main_v11_apply, val_main_v10_apply, val_main_cst_3_apply, rowidx_max]
  show max (Ideal.ofBits .f32 0xFF800000#32) (val_main_v9 (F := Ideal) x0 x1 x3 (ix3 b h q)) = _
  rw [Consts.ofBits_neg_inf, max_eq_right bot_le]
  unfold val_main_v9
  exact hostRowMax _ b h q

/-- The exponentials: each score less its row's supremum. -/
theorem exp_apply (b : Fin 4) (h : Fin 16) (q k : Fin 1024) :
    val_main_v15 (F := Ideal) x0 x1 x3 (ix4 b h q k)
      = Ideal.exp (val_main_v8 (F := Ideal) x0 x1 x3 (ix4 b h q k)
          - Finset.univ.sup (fun k' : Fin 1024 => val_main_v8 (F := Ideal) x0 x1 x3 (ix4 b h q k'))) := by
  rw [val_main_v15_apply, val_main_v14_apply, max_apply]
  rfl

/-- The reference's row sum of the exponentials laid back along the row, read at (b, h, q, k). -/
theorem sum_apply (b : Fin 4) (h : Fin 16) (q k : Fin 1024) :
    val_main_v18 (F := Ideal) x0 x1 x3 (ix4 b h q k) = ∑ k' : Fin 1024, val_main_v15 (F := Ideal) x0 x1 x3 (ix4 b h q k') := by
  rw [val_main_v18_apply, val_main_v17_apply, rowidx_sum, val_main_v16_apply, val_main_cst_4_apply]
  show Ideal.ofBits .f32 0x00000000#32 + _ = _
  rw [Ideal.ofBits_zero_f32, zero_add]
  exact Finset.sum_congr rfl fun k' _ => congrArg _ (sumidx_eq b h q k')

/-- The reference's weights at (b, h, q, k): the softmax of its scores' row (b, h, q), at k. -/
theorem weight_apply (b : Fin 4) (h : Fin 16) (q k : Fin 1024) :
    val_main_v19 (F := Ideal) x0 x1 x3 (ix4 b h q k)
      = softRow (fun k' => val_main_v8 (F := Ideal) x0 x1 x3 (ix4 b h q k')) k := by
  rw [val_main_v19_apply, sum_apply, exp_apply]
  unfold softRow
  exact congrArg (Ideal.div _) (Finset.sum_congr rfl fun k' _ => exp_apply x0 x1 x3 b h q k')

/-! ### The two results as whole arrays -/

/-- The reference's scores array is the specification's, for real queries and keys. -/
theorem scores_eq (hx0 : ∀ i, ∃ r : ℝ, x0 i = r) (hx1 : ∀ i, ∃ r : ℝ, x1 i = r) :
    val_main_v8 (F := Ideal) x0 x1 x3 = scores x0 x1 x3 := by
  funext i
  obtain ⟨b, h, q, k, rfl⟩ : ∃ (b : Fin 4) (h : Fin 16) (q k : Fin 1024), i = ix4 b h q k := ⟨i 0, i 1, i 2, i 3, eq_ix4 i⟩
  exact score_apply x0 x1 x3 hx0 hx1 b h q k

/-- The reference's weights array is the specification's, for real queries and keys. -/
theorem attn_eq (hx0 : ∀ i, ∃ r : ℝ, x0 i = r) (hx1 : ∀ i, ∃ r : ℝ, x1 i = r) :
    val_main_v19 (F := Ideal) x0 x1 x3 = attn x0 x1 x3 := by
  funext i
  obtain ⟨b, h, q, k, rfl⟩ : ∃ (b : Fin 4) (h : Fin 16) (q k : Fin 1024), i = ix4 b h q k := ⟨i 0, i 1, i 2, i 3, eq_ix4 i⟩
  rw [weight_apply]
  exact congrArg (fun r => softRow r k) (funext fun k' => score_apply x0 x1 x3 hx0 hx1 b h q k')

end Cert.Attn.Ref

end
-- ==== Proof.Finite.lean ====
/-
  The precondition read back: it is the conjunction, over the three float arguments, of "every entry's absolute
  value is below +∞". An extended real whose absolute value is below +∞ is neither infinity, so it is a real
  number. Only the queries and the keys are used: the value array does not enter either result.
-/
import proofs.«419834_j65481071396432_3_alg».proof.Pre_finite_inputs
import proofs.«419834_j65481071396432_3_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic Cert.Pre_finite_inputs

instance : Subsingleton S_.Idx := ⟨fun a b => funext fun d => d.elim0⟩

/-- An extended real whose absolute value compares below the +∞ pattern is a real number. -/
theorem real_of_flag (x : EReal)
    (h : FloatOps.cmpf (F := Ideal) (φ := .f32) .olt (FloatOps.hostAbsf (F := Ideal) (φ := .f32) x) (Ideal.ofBits .f32 0x7F800000#32) = 1#1) :
    ∃ r : ℝ, x = r := by
  have hinf : Ideal.ofBits .f32 0x7F800000#32 = (⊤ : EReal) := by simp [Ideal.ofBits, Ideal.ieee]
  rw [hinf] at h
  induction x using EReal.rec with
  | bot =>
    have h' : Ideal.cmp .olt (max (⊥ : EReal) (-⊥)) ⊤ = 1#1 := h
    simp [Ideal.cmp] at h'
  | coe r => exact ⟨r, rfl⟩
  | top =>
    have h' : Ideal.cmp .olt (max (⊤ : EReal) (-⊤)) ⊤ = 1#1 := h
    simp [Ideal.cmp] at h'

/-- Under the precondition every query entry and every key entry is a real number. -/
theorem reals_of_pre (a0 a1 a2 : FVec Ideal S4x16x1024x64 .f32) (a3 : IVec S4x1024x1024 32)
    (h : Cert.Pre_finite_inputs.fn (F := Ideal) a0 a1 a2 a3 = fun _ => 1#1) :
    (∀ i, ∃ r : ℝ, a0 i = r) ∧ (∀ i, ∃ r : ℝ, a1 i = r) := by
  have h0 := congrFun h ValueIdx.ix0
  dsimp only [Cert.Pre_finite_inputs.fn] at h0
  obtain ⟨h01, -⟩ := IntOp.andi_eq_one.1 h0
  obtain ⟨hq, hk⟩ := IntOp.andi_eq_one.1 h01
  exact ⟨fun i => real_of_flag _ (Host.reduce_andi_all _ _ _ _ _ hq i),
    fun i => real_of_flag _ (Host.reduce_andi_all _ _ _ _ _ hk i)⟩

end Cert.Attn.Finite

end
-- ==== Proof.lean ====
/-
  Scaled dot-product attention without the value product: from queries Q and keys K ([4, 16, 1024, 64]) and an integer
  mask ([4, 1024, 1024]) the two results are the masked scores
      S(b, h, q, k) = −10⁹ where mask(b, q, k) = 0, else ∑_d Q(b, h, q, d) · K(b, h, k, d) / √64,
  and their softmax over k. The kernel takes one (batch, head) per grid point, scales the query entries by the
  literal 1/8 before the product, and computes both tiles; the reference scales the finished products by 1 / √64.

  The three frames are the generated ones (the reference's is its generated run with the results dropped). The
  idealization rewrote nothing, so `preserves` is trivial. For `algebraic`: the kernel's two arrays end at the
  specification's `attn` and `scores` of the arguments (Proof/KernelArray.lean, over Proof/KernelBlock.lean and
  Proof/RowOps.lean), and the reference's two results are the same functions of the same arguments
  (Proof/Reference.lean) once the queries and keys are real numbers, which the precondition says
  (Proof/Finite.lean): that is where √64 = 8 and the move of a real factor under a finite sum are used
  (Proof/Consts.lean, Proof/Spec.lean).
-/
import proofs.«419834_j65481071396432_3_alg».proof.Defs
import proofs.«419834_j65481071396432_3_alg».proof.Proof.Gen.Kernel
import proofs.«419834_j65481071396432_3_alg».proof.Proof.Gen.Kernel.Skeleton
import proofs.«419834_j65481071396432_3_alg».proof.Proof.Gen.Kernel.Launch
import proofs.«419834_j65481071396432_3_alg».proof.Proof.Gen.Kernel.Points
import proofs.«419834_j65481071396432_3_alg».proof.Proof.Gen.Kernel.Frame
import proofs.«419834_j65481071396432_3_alg».proof.Proof.Gen.KernelIdeal
import proofs.«419834_j65481071396432_3_alg».proof.Proof.Gen.KernelIdeal.Skeleton
import proofs.«419834_j65481071396432_3_alg».proof.Proof.Gen.KernelIdeal.Launch
import proofs.«419834_j65481071396432_3_alg».proof.Proof.Gen.KernelIdeal.Points
import proofs.«419834_j65481071396432_3_alg».proof.Proof.Gen.KernelIdeal.Frame
import proofs.«419834_j65481071396432_3_alg».proof.Proof.Gen.ReferenceIdeal
import proofs.«419834_j65481071396432_3_alg».proof.Proof.Gen.Pre_finite_inputs
import proofs.«419834_j65481071396432_3_alg».proof.Proof.Gen.KernelIdeal.Value
import proofs.«419834_j65481071396432_3_alg».proof.Proof.Gen.ReferenceIdeal.Run
import proofs.«419834_j65481071396432_3_alg».proof.Proof.Gen.ReferenceIdeal.Read
import proofs.«419834_j65481071396432_3_alg».proof.Proof.KernelArray
import proofs.«419834_j65481071396432_3_alg».proof.Proof.Reference
import proofs.«419834_j65481071396432_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs, from memories that agree on the arguments, end with the weights at `attn` and the scores at
    `scores` of the kernel's arguments: the kernel by its blocks, the reference by its operations read at an index,
    with the queries and keys real by the precondition. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => Cert.Attn.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    Cert.Attn.Array.run m ρ, ?_⟩
  refine (θ_run Cert.ReferenceIdeal.defs _ _).mono (fun r h c => ?_) (Cert.ReferenceIdeal.Value.run (F := Ideal) m' ρ')
  obtain ⟨hq, hk⟩ := Cert.Attn.Finite.reals_of_pre _ _ _ _ (hpre c)
  obtain ⟨a0, a1, a2, a3⟩ := hagree c
  refine ⟨(h c).1.trans ?_, (h c).2.1.trans ?_, (h c).2.2⟩
  · refine (Cert.ReferenceIdeal.Read.val_main_v19_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3))).trans ?_
    rw [a0, a1, a3]
    exact Cert.Attn.Ref.attn_eq _ _ _ hq hk
  · refine (Cert.ReferenceIdeal.Read.val_main_v8_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3))).trans ?_
    rw [a0, a1, a3]
    exact Cert.Attn.Ref.scores_eq _ _ _ hq hk

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
